-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x800000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x128 : Shape := ⟨2, ![100000, 128]⟩
abbrev S5000x256 : Shape := ⟨2, ![5000, 256]⟩
abbrev S5000x128 : Shape := ⟨2, ![5000, 128]⟩
abbrev S900000x128 : Shape := ⟨2, ![900000, 128]⟩
abbrev S1x128 : Shape := ⟨2, ![1, 128]⟩
abbrev S100000x64 : Shape := ⟨2, ![100000, 64]⟩
abbrev S5000x64 : Shape := ⟨2, ![5000, 64]⟩
abbrev S900000x64 : Shape := ⟨2, ![900000, 64]⟩
abbrev S1x64 : Shape := ⟨2, ![1, 64]⟩

abbrev nBuf : Space → Nat
  | .hbm => 77
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S900000, .i32⟩
  | .hbm, ⟨22, _⟩ => ⟨S900000, .i1⟩
  | .hbm, ⟨23, _⟩ => ⟨S_, .i32⟩
  | .hbm, ⟨24, _⟩ => ⟨S900000, .i32⟩
  | .hbm, ⟨25, _⟩ => ⟨S900000, .i32⟩
  | .hbm, ⟨26, _⟩ => ⟨S900000, .i32⟩
  | .hbm, ⟨27, _⟩ => ⟨S900000x1, .i32⟩
  | .hbm, ⟨28, _⟩ => ⟨S900000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S900000, .f32⟩
  | .hbm, ⟨39, _⟩ => ⟨S100000x128, .f32⟩
  | .hbm, ⟨40, _⟩ => ⟨S_, .i32⟩
  | .hbm, ⟨41, _⟩ => ⟨S900000, .i32⟩
  | .hbm, ⟨42, _⟩ => ⟨S900000, .i1⟩
  | .hbm, ⟨43, _⟩ => ⟨S_, .i32⟩
  | .hbm, ⟨44, _⟩ => ⟨S900000, .i32⟩
  | .hbm, ⟨45, _⟩ => ⟨S900000, .i32⟩
  | .hbm, ⟨46, _⟩ => ⟨S900000, .i32⟩
  | .hbm, ⟨47, _⟩ => ⟨S900000x1, .i32⟩
  | .hbm, ⟨48, _⟩ => ⟨S900000x128, .f32⟩
  | .hbm, ⟨49, _⟩ => ⟨S900000x1, .f32⟩
  | .hbm, ⟨50, _⟩ => ⟨S900000x128, .f32⟩
  | .hbm, ⟨51, _⟩ => ⟨S900000x128, .f32⟩
  | .hbm, ⟨52, _⟩ => ⟨S_, .f32⟩
  | .hbm, ⟨53, _⟩ => ⟨S100000x128, .f32⟩
  | .hbm, ⟨54, _⟩ => ⟨S900000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x64, .f32⟩
  | .hbm, ⟨59, _⟩ => ⟨S_, .i32⟩
  | .hbm, ⟨60, _⟩ => ⟨S900000, .i32⟩
  | .hbm, ⟨61, _⟩ => ⟨S900000, .i1⟩
  | .hbm, ⟨62, _⟩ => ⟨S_, .i32⟩
  | .hbm, ⟨63, _⟩ => ⟨S900000, .i32⟩
  | .hbm, ⟨64, _⟩ => ⟨S900000, .i32⟩
  | .hbm, ⟨65, _⟩ => ⟨S900000, .i32⟩
  | .hbm, ⟨66, _⟩ => ⟨S900000x1, .i32⟩
  | .hbm, ⟨67, _⟩ => ⟨S900000x64, .f32⟩
  | .hbm, ⟨68, _⟩ => ⟨S900000x1, .f32⟩
  | .hbm, ⟨69, _⟩ => ⟨S900000x64, .f32⟩
  | .hbm, ⟨70, _⟩ => ⟨S900000x64, .f32⟩
  | .hbm, ⟨71, _⟩ => ⟨S_, .f32⟩
  | .hbm, ⟨72, _⟩ => ⟨S100000x64, .f32⟩
  | .hbm, ⟨73, _⟩ => ⟨S900000x1, .i32⟩
  | .hbm, ⟨74, _⟩ => ⟨S100000x64, .f32⟩
  | .hbm, ⟨75, _⟩ => ⟨S1x64, .f32⟩
  | .hbm, ⟨76, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x256_S256x128_S5000x128_1_0_0_1_n_n_wf : DotDims.WF S5000x256 S256x128 S5000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x64_S5000x64_1_0_0_1_n_n_wf : DotDims.WF S5000x128 S128x64 S5000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x128 : Shape := ⟨2, ![100000, 128]⟩
abbrev S900000x128 : Shape := ⟨2, ![900000, 128]⟩
abbrev S1x128 : Shape := ⟨2, ![1, 128]⟩
abbrev S100000x64 : Shape := ⟨2, ![100000, 64]⟩
abbrev S900000x64 : Shape := ⟨2, ![900000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S900000, .i32⟩
  | .hbm, ⟨22, _⟩ => ⟨S900000, .i1⟩
  | .hbm, ⟨23, _⟩ => ⟨S_, .i32⟩
  | .hbm, ⟨24, _⟩ => ⟨S900000, .i32⟩
  | .hbm, ⟨25, _⟩ => ⟨S900000, .i32⟩
  | .hbm, ⟨26, _⟩ => ⟨S900000, .i32⟩
  | .hbm, ⟨27, _⟩ => ⟨S900000x1, .i32⟩
  | .hbm, ⟨28, _⟩ => ⟨S900000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S900000, .f32⟩
  | .hbm, ⟨39, _⟩ => ⟨S100000x128, .f32⟩
  | .hbm, ⟨40, _⟩ => ⟨S_, .i32⟩
  | .hbm, ⟨41, _⟩ => ⟨S900000, .i32⟩
  | .hbm, ⟨42, _⟩ => ⟨S900000, .i1⟩
  | .hbm, ⟨43, _⟩ => ⟨S_, .i32⟩
  | .hbm, ⟨44, _⟩ => ⟨S900000, .i32⟩
  | .hbm, ⟨45, _⟩ => ⟨S900000, .i32⟩
  | .hbm, ⟨46, _⟩ => ⟨S900000, .i32⟩
  | .hbm, ⟨47, _⟩ => ⟨S900000x1, .i32⟩
  | .hbm, ⟨48, _⟩ => ⟨S900000x128, .f32⟩
  | .hbm, ⟨49, _⟩ => ⟨S900000x1, .f32⟩
  | .hbm, ⟨50, _⟩ => ⟨S900000x128, .f32⟩
  | .hbm, ⟨51, _⟩ => ⟨S900000x128, .f32⟩
  | .hbm, ⟨52, _⟩ => ⟨S_, .f32⟩
  | .hbm, ⟨53, _⟩ => ⟨S100000x128, .f32⟩
  | .hbm, ⟨54, _⟩ => ⟨S900000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x64, .f32⟩
  | .hbm, ⟨63, _⟩ => ⟨S_, .i32⟩
  | .hbm, ⟨64, _⟩ => ⟨S900000, .i32⟩
  | .hbm, ⟨65, _⟩ => ⟨S900000, .i1⟩
  | .hbm, ⟨66, _⟩ => ⟨S_, .i32⟩
  | .hbm, ⟨67, _⟩ => ⟨S900000, .i32⟩
  | .hbm, ⟨68, _⟩ => ⟨S900000, .i32⟩
  | .hbm, ⟨69, _⟩ => ⟨S900000, .i32⟩
  | .hbm, ⟨70, _⟩ => ⟨S900000x1, .i32⟩
  | .hbm, ⟨71, _⟩ => ⟨S900000x64, .f32⟩
  | .hbm, ⟨72, _⟩ => ⟨S900000x1, .f32⟩
  | .hbm, ⟨73, _⟩ => ⟨S900000x64, .f32⟩
  | .hbm, ⟨74, _⟩ => ⟨S900000x64, .f32⟩
  | .hbm, ⟨75, _⟩ => ⟨S_, .f32⟩
  | .hbm, ⟨76, _⟩ => ⟨S100000x64, .f32⟩
  | .hbm, ⟨77, _⟩ => ⟨S900000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x256_S256x128_S100000x128_1_0_0_1_n_n_wf : DotDims.WF S100000x256 S256x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x64_S100000x64_1_0_0_1_n_n_wf : DotDims.WF S100000x128 S128x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.Stretches.lean ====
/-
  The host operations between the kernels, read as functions of the few arrays they take in.

  The program's host side does four things, all on whole arrays. From the edge list e (two rows of 800000 node numbers) it
  builds the source and target lists of the 900000 edges of the graph with a loop added at every node (the two rows of e,
  each followed by 0, 1, …, 99999). From the target list it counts the edges into each node (a scatter-add of ones), takes
  the inverse square root, and reads it back at both ends of every edge: the edge's weight is the product of the two. And,
  once per layer, it gathers the rows of a dense array at the edges' sources, scales each gathered row by the edge's
  weight and adds it into the row of the edge's target (a scatter-add into zeros); the layer's bias vector is laid out as
  one row for the kernel that follows.

  Each stretch is read from ANY contents `W` of the buffers at its entry: what it leaves in a buffer is the named
  function of what `W` holds in the buffers it reads, and a buffer it does not write keeps `W`'s contents.
-/
import proofs.«117052_j27685359190830_1_alg».proof.Proof.Gen.KernelIdeal.Launch
import Idealize.ShloMosaic.Lib.StableHlo.Run

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-! ## The functions -/

/-- Row `r` of the edge list followed by the node numbers 0 … 99999: the sources (`r = 0`) or the targets (`r = 1`) of the
    edges, a loop at every node included. -/
def srcOf (e : (⟨S2x800000, .i32⟩ : BufTy).Contents (Elt F)) : (⟨S900000, .i32⟩ : BufTy).Contents (Elt F) :=
  concatenate S900000 0 [⟨S800000, shapeCast _ (extractStridedSlice S1x800000 ![0, 0] e slices_S2x800000_S1x800000_0_0) shapeCasts_S1x800000_S800000⟩, ⟨S100000, iotaInDim S100000 32 0⟩] concatenates_S800000_S100000_S900000_d0
def dstOf (e : (⟨S2x800000, .i32⟩ : BufTy).Contents (Elt F)) : (⟨S900000, .i32⟩ : BufTy).Contents (Elt F) :=
  concatenate S900000 0 [⟨S800000, shapeCast _ (extractStridedSlice S1x800000 ![1, 0] e slices_S2x800000_S1x800000_1_0) shapeCasts_S1x800000_S800000⟩, ⟨S100000, iotaInDim S100000 32 0⟩] concatenates_S800000_S100000_S900000_d0

/-- A list of node numbers as the column of start indices a gather reads: a negative number counted from the end. -/
def wrapCol (s : (⟨S900000, .i32⟩ : BufTy).Contents (Elt F)) : (⟨S900000x1, .i32⟩ : BufTy).Contents (Elt F) :=
  broadcastInDim S900000x1 ![0] bcast_S900000_S900000x1_0
    (select (cmpi .slt s (broadcastInDim S900000 ![] bcast_S_S900000 (constantI S_ 32 0#32)))
      (addi s (broadcastInDim S900000 ![] bcast_S_S900000 (constantI S_ 32 100000#32))) s)

/-- The inverse square root of the number of edges into each node. -/
def dinvOf (dst : (⟨S900000, .i32⟩ : BufTy).Contents (Elt F)) : (⟨S100000, .f32⟩ : BufTy).Contents (Elt F) :=
  Host.rsqrt (Host.scatterAdd scatter_S100000_S900000x1_S900000_n_0_0_1
    (broadcastInDim S100000 ![] bcast_S_S100000 (constant S_ .f32 0x00000000#32))
    (broadcastInDim S900000x1 ![0] bcast_S900000_S900000x1_0 dst)
    (broadcastInDim S900000 ![] bcast_S_S900000 (constant S_ .f32 0x3F800000#32)))

/-- Each edge's weight: the product of that quantity at its source and at its target. -/
def normOf (src dst : (⟨S900000, .i32⟩ : BufTy).Contents (Elt F)) : (⟨S900000, .f32⟩ : BufTy).Contents (Elt F) :=
  mulf (Host.gather gather_S100000_S900000x1_S900000_n_0_n_n_0_1_1 (dinvOf dst) (wrapCol src))
    (Host.gather gather_S100000_S900000x1_S900000_n_0_n_n_0_1_1 (dinvOf dst) (wrapCol dst))

/-- One layer's aggregation at 128 columns: the rows of `hw` at the edges' sources, each scaled by the edge's weight, added
    into the rows of the edges' targets. -/
def agg128 (hw : (⟨S100000x128, .f32⟩ : BufTy).Contents (Elt F)) (src dst : (⟨S900000, .i32⟩ : BufTy).Contents (Elt F))
    (norm : (⟨S900000, .f32⟩ : BufTy).Contents (Elt F)) : (⟨S100000x128, .f32⟩ : BufTy).Contents (Elt F) :=
  Host.scatterAdd scatter_S100000x128_S900000x1_S900000x128_1_0_0_1
    (broadcastInDim S100000x128 ![] bcast_S_S100000x128 (constant S_ .f32 0x00000000#32))
    (broadcastInDim S900000x1 ![0] bcast_S900000_S900000x1_0 dst)
    (mulf (Host.gather gather_S100000x128_S900000x1_S900000x128_1_0_n_n_0_1_1128 hw (wrapCol src))
      (broadcastInDim S900000x128 ![0, 1] bcast_S900000x1_S900000x128_0_1 (broadcastInDim S900000x1 ![0] bcast_S900000_S900000x1_0 norm)))

/-- The same at 64 columns. -/
def agg64 (hw : (⟨S100000x64, .f32⟩ : BufTy).Contents (Elt F)) (src dst : (⟨S900000, .i32⟩ : BufTy).Contents (Elt F))
    (norm : (⟨S900000, .f32⟩ : BufTy).Contents (Elt F)) : (⟨S100000x64, .f32⟩ : BufTy).Contents (Elt F) :=
  Host.scatterAdd scatter_S100000x64_S900000x1_S900000x64_1_0_0_1
    (broadcastInDim S100000x64 ![] bcast_S_S100000x64 (constant S_ .f32 0x00000000#32))
    (broadcastInDim S900000x1 ![0] bcast_S900000_S900000x1_0 dst)
    (mulf (Host.gather gather_S100000x64_S900000x1_S900000x64_1_0_n_n_0_1_164 hw (wrapCol src))
      (broadcastInDim S900000x64 ![0, 1] bcast_S900000x1_S900000x64_0_1 (broadcastInDim S900000x1 ![0] bcast_S900000_S900000x1_0 norm)))

/-! ## The first stretch: sources, targets, weights -/

variable (W : Valuation τ sig (Elt F))

theorem first_src : after hostOps0 W (Proc.devRef .tc main_v3) = srcOf (W (Proc.devRef .tc main_arg1)) := by
  unfold srcOf; after_results; rfl
theorem first_dst : after hostOps0 W (Proc.devRef .tc main_v6) = dstOf (W (Proc.devRef .tc main_arg1)) := by
  unfold dstOf; after_results; rfl
set_option maxHeartbeats 1600000 in
theorem first_norm : after hostOps0 W (Proc.devRef .tc main_v26)
    = normOf (srcOf (W (Proc.devRef .tc main_arg1))) (dstOf (W (Proc.devRef .tc main_arg1))) := by
  unfold normOf dinvOf wrapCol srcOf dstOf; after_results_simp; rfl

/-- A buffer the first stretch does not write keeps its contents. -/
local macro "keeps_first" b:term : tactic => `(tactic| (
  refine after_of_forall_not_mem (b := Proc.devRef .tc $b) _ _ (List.forall_iff_forall_mem.mp ?_)
  simp only [hostOps0, List.Forall, nullary_writes, unary_writes, binary_writes, ternary_writes, quaternary_writes, reshape_writes, binaryIndexed_writes, Finset.mem_singleton]
  repeat' apply And.intro
  all_goals exact devRef_ne_of_ne (by decide)))

theorem first_keeps_arg0 : after hostOps0 W (Proc.devRef .tc main_arg0) = W (Proc.devRef .tc main_arg0) := by keeps_first main_arg0
theorem first_keeps_arg2 : after hostOps0 W (Proc.devRef .tc main_arg2) = W (Proc.devRef .tc main_arg2) := by keeps_first main_arg2
theorem first_keeps_arg3 : after hostOps0 W (Proc.devRef .tc main_arg3) = W (Proc.devRef .tc main_arg3) := by keeps_first main_arg3
theorem first_keeps_arg4 : after hostOps0 W (Proc.devRef .tc main_arg4) = W (Proc.devRef .tc main_arg4) := by keeps_first main_arg4
theorem first_keeps_arg5 : after hostOps0 W (Proc.devRef .tc main_arg5) = W (Proc.devRef .tc main_arg5) := by keeps_first main_arg5

/-! ## The second stretch: the first layer's aggregation and its bias row -/

theorem second_agg : after hostOps1 W (Proc.devRef .tc main_v40)
    = agg128 (W (Proc.devRef .tc main_v27)) (W (Proc.devRef .tc main_v3)) (W (Proc.devRef .tc main_v6)) (W (Proc.devRef .tc main_v26)) := by
  unfold agg128 wrapCol; after_results_simp
theorem second_row : after hostOps1 W (Proc.devRef .tc main_v41)
    = shapeCast S1x128 (W (Proc.devRef .tc main_arg3)) shapeCasts_S128_S1x128 := by
  after_results_simp; rfl

/-- A buffer the second stretch does not write keeps its contents. -/
local macro "keeps_second" b:term : tactic => `(tactic| (
  refine after_of_forall_not_mem (b := Proc.devRef .tc $b) _ _ (List.forall_iff_forall_mem.mp ?_)
  simp only [hostOps1, List.Forall, nullary_writes, unary_writes, binary_writes, ternary_writes, quaternary_writes, reshape_writes, binaryIndexed_writes, Finset.mem_singleton]
  repeat' apply And.intro
  all_goals exact devRef_ne_of_ne (by decide)))

theorem second_keeps_v3 : after hostOps1 W (Proc.devRef .tc main_v3) = W (Proc.devRef .tc main_v3) := by keeps_second main_v3
theorem second_keeps_v6 : after hostOps1 W (Proc.devRef .tc main_v6) = W (Proc.devRef .tc main_v6) := by keeps_second main_v6
theorem second_keeps_v26 : after hostOps1 W (Proc.devRef .tc main_v26) = W (Proc.devRef .tc main_v26) := by keeps_second main_v26
theorem second_keeps_arg4 : after hostOps1 W (Proc.devRef .tc main_arg4) = W (Proc.devRef .tc main_arg4) := by keeps_second main_arg4
theorem second_keeps_arg5 : after hostOps1 W (Proc.devRef .tc main_arg5) = W (Proc.devRef .tc main_arg5) := by keeps_second main_arg5

/-! ## The third stretch: the second layer's aggregation and its bias row -/

theorem third_agg : after hostOps3 W (Proc.devRef .tc main_v56)
    = agg64 (W (Proc.devRef .tc main_v43)) (W (Proc.devRef .tc main_v3)) (W (Proc.devRef .tc main_v6)) (W (Proc.devRef .tc main_v26)) := by
  unfold agg64 wrapCol; after_results_simp
theorem third_row : after hostOps3 W (Proc.devRef .tc main_v57)
    = shapeCast S1x64 (W (Proc.devRef .tc main_arg5)) shapeCasts_S64_S1x64 := by
  after_results_simp; rfl

end Cert.KernelIdeal.Stretch

end
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.Dense1.lean ====
/-
  The first dense transform, region by region: what the first matrix-product kernel leaves in its output array.

  The kernel walks the 100000 rows of x in 20 blocks of 5000. At block t it multiplies rows 5000·t … 5000·t + 4999 of x
  (all 256 columns) by the whole 256×128 weight matrix into a zero accumulator, and writes the 5000×128 product to the same
  rows of the output. At the ideal values the change of float format before the product is the identity and the product
  into zero is the plain sum, so entry (r, h) of the output is Σ_k x(r, k)·w(k, h) whichever block r lies in: the blocks
  are the restrictions of ONE function of the two arrays, and the 20 blocks cover every row.
-/
import proofs.«117052_j27685359190830_1_alg».proof.Proof.Gen.KernelIdeal.Frame
import proofs.«117052_j27685359190830_1_alg».proof.Proof.LibDenseLayer

set_option maxRecDepth 16384

noncomputable section

namespace Cert.KernelIdeal.Dense1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where entry `i` of the product reads the left operand at the contracted coordinate `k`: row `i 0`, column `k`. -/
abbrev lcoord (i : S100000x128.Idx) (k : Fin 256) : S100000x256.Idx := fun a => match a with
  | ⟨0, _⟩ => ⟨(i 0).val, (i 0).isLt⟩
  | ⟨1, _⟩ => ⟨k.val, k.isLt⟩
/-- Where it reads the right operand: row `k`, column `i 1`. -/
abbrev rcoord (i : S100000x128.Idx) (k : Fin 256) : S256x128.Idx := fun a => match a with
  | ⟨0, _⟩ => ⟨k.val, k.isLt⟩
  | ⟨1, _⟩ => ⟨(i 1).val, (i 1).isLt⟩

/-- The product of a 100000×256 matrix with a 256×128 matrix, entry by entry. -/
def prod (x : (⟨S100000x256, .f32⟩ : BufTy).Contents (Elt Ideal)) (w : (⟨S256x128, .f32⟩ : BufTy).Contents (Elt Ideal)) :
    (⟨S100000x128, .f32⟩ : BufTy).Contents (Elt Ideal) :=
  fun i => ∑ k : Fin 256, x (lcoord i k) * w (rcoord i k)

/-- The left array as the region finds it, at its literal type. -/
abbrev xarr (c : Dev nD) : (⟨S100000x256, .f32⟩ : BufTy).Contents (Elt Ideal) := V c main_arg0
/-- The weight matrix as the region finds it, at its literal type. -/
abbrev warr (c : Dev nD) : (⟨S256x128, .f32⟩ : BufTy).Contents (Elt Ideal) := V c main_arg2

/-- One block's product read at an entry: the change of format is the identity and the zero accumulator adds nothing. -/
theorem pay_apply (xb : Vec Ideal S5000x256 .f32) (wb : Vec Ideal S256x128 .f32) (y : S5000x128.Idx) :
    k0_pay1 xb wb y = ∑ l : Fin 256, xb (ix2 (⟨(y 0).val, (y 0).isLt⟩ : Fin 5000) l) * wb (ix2 l (⟨(y 1).val, (y 1).isLt⟩ : Fin 128)) := by
  obtain ⟨p, q, rfl⟩ : ∃ (p : Fin 5000) (q : Fin 128), y = ix2 p q := ⟨y 0, y 1, eq_ix2 y⟩
  unfold k0_pay1
  exact DenseLayer.matmul_rows_apply dot_S5000x256_S256x128_S5000x128_1_0_0_1_n_n_wf none _ _ p q

/-- The printed index maps over the 20 points: the row block of x and of the output is the point's number; the weight
    matrix is one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the product of the two arrays as the region finds them. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  funext j
  have hj0 : (j 0).val < 5000 := (j 0).isLt
  have hj1 : (j 1).val < 128 := (j 1).isLt
  show k0_pay1 (iblk0 V c 0 t) (iblk0 V c 1 t) ((win0 2).xinj (grid0.coords t) j)
    = prod (V c main_arg0) (V c main_arg2) (((cfg0.win 2).blk t).view.emb j)
  refine (pay_apply _ _ _).trans ?_
  unfold prod
  refine Finset.sum_congr rfl fun l _ => ?_
  have hl : l.val < 256 := l.isLt
  show xarr V c (((cfg0.win 0).blk t).view.emb (ix2 (⟨(j 0).val, hj0⟩ : Fin 5000) l))
      * warr V c (((cfg0.win 1).blk t).view.emb (ix2 l (⟨(j 1).val, hj1⟩ : Fin 128)))
    = xarr V c (lcoord (((cfg0.win 2).blk t).view.emb j) l) * warr V c (rcoord (((cfg0.win 2).blk t).view.emb j) l)
  have h0 : ((cfg0.win 0).blk t).view.emb (ix2 (⟨(j 0).val, hj0⟩ : Fin 5000) l) = lcoord (((cfg0.win 2).blk t).view.emb j) l := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * l.val = l.val; omega
  have h1 : ((cfg0.win 1).blk t).view.emb (ix2 l (⟨(j 1).val, hj1⟩ : Fin 128)) = rcoord (((cfg0.win 2).blk t).view.emb j) l := by
    funext a; apply Fin.ext
    match a with
    | ⟨0, _⟩ => show win0_1.index t (0 : Fin 2) * 256 + 1 * l.val = l.val; omega
    | ⟨1, _⟩ => show win0_1.index t (1 : Fin 2) * 128 + 1 * (j 1).val = win0_2.index t (1 : Fin 2) * 128 + 1 * (j 1).val; omega
  rw [h0, h1]

/-- An index of the output array lies in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every entry of the output lies in some point's block: row `r` in block `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 5000 < cfg0.N := by rw [show cfg0.N = 20 from N_0]; omega
  obtain ⟨-, -, -, -, e4, e5⟩ := idx_facts ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_blk]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4']; omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    rw [e5]; omega

/-- After the region the output array holds the product of the two arrays as the region found them. -/
theorem final (c : Dev nD) : (dat0 V c).arrAt 2 cfg0.N = prod (V c main_arg0) (V c main_arg2) :=
  (dat0 V c).arrAt_eq_of_cover 2 _ (fun t _ => flushed_eq V c t) covered

end Cert.KernelIdeal.Dense1

end
-- ==== Proof.BiasRelu.lean ====
/-
  The bias and the rectifier of the first layer: what the second kernel leaves in its output array.

  The kernel walks the 100000 rows of the aggregated array in 20 blocks of 5000. At block t it adds to each of the rows
  5000·t … 5000·t + 4999 the one bias row (broadcast down the rows) and takes the maximum with zero, entry by entry, and
  writes the block to the same rows of the output. Entry (r, h) of the output is max(a(r, h) + b(0, h), 0) whichever block
  r lies in: the blocks restrict ONE function of the two arrays, and the 20 blocks cover every row.
-/
import proofs.«117052_j27685359190830_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.BiasRelu

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where entry `i` reads the one-row bias: row 0, column `i 1`. -/
abbrev rowcoord (i : S100000x128.Idx) : S1x128.Idx := fun a => match a with
  | ⟨0, _⟩ => ⟨0, Nat.one_pos⟩
  | ⟨1, _⟩ => ⟨(i 1).val, (i 1).isLt⟩

/-- The bias row added to every row of `a`, then the maximum with zero, entry by entry. -/
def biasRelu (a : FVec Ideal S100000x128 .f32) (row : FVec Ideal S1x128 .f32) :
    FVec Ideal S100000x128 .f32 :=
  fun i => FloatOps.maximumf (F := Ideal) (FloatOps.addf (F := Ideal) (a i) (row (rowcoord i))) (FloatOps.ofBits (F := Ideal) .f32 0x00000000#32)

/-- The aggregated array as the region finds it, at its literal type. -/
abbrev aarr (c : Dev nD) : FVec Ideal S100000x128 .f32 := V c main_v40
/-- The bias row as the region finds it, at its literal type. -/
abbrev rarr (c : Dev nD) : FVec Ideal S1x128 .f32 := V c main_v41

/-- One block's result read at an entry. -/
theorem pay_apply (xb : FVec Ideal S5000x128 .f32) (rb : FVec Ideal S1x128 .f32) (y : S5000x128.Idx) :
    k1_pay1 (F := Ideal) xb rb y = FloatOps.maximumf (F := Ideal) (FloatOps.addf (F := Ideal) (xb y) (rb (ix2 (0 : Fin 1) (⟨(y 1).val, (y 1).isLt⟩ : Fin 128))))
      (FloatOps.ofBits (F := Ideal) .f32 0x00000000#32) := by
  obtain ⟨p, q, rfl⟩ : ∃ (p : Fin 5000) (q : Fin 128), y = ix2 p q := ⟨y 0, y 1, eq_ix2 y⟩
  unfold k1_pay1
  show FloatOps.maximumf (F := Ideal) (FloatOps.addf (F := Ideal) (shapeCast S5000x128 xb _ (ix2 p q))
      (broadcastTo S5000x128 (shapeCast S1x128 rb _) _ (ix2 p q)))
      (FloatOps.ofBits (F := Ideal) .f32 0x00000000#32) = _
  rw [shapeCast_self, shapeCast_self, broadcastTo_1b_ab_apply]

/-- The printed index maps over the 20 points. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the biased, rectified array. -/
theorem flushed_eq (c : Dev nD) (t : Fin cfg1.N) :
    (dat1 V c).flushed 2 t = ((cfg1.win 2).blk t).view.read (Elt Ideal) (biasRelu (V c main_v40) (V c main_v41)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx_facts t
  funext j
  have hj0 : (j 0).val < 5000 := (j 0).isLt
  have hj1 : (j 1).val < 128 := (j 1).isLt
  show k1_pay1 (iblk1 V c 0 t) (iblk1 V c 1 t) ((win1 2).xinj (grid1.coords t) j)
    = biasRelu (V c main_v40) (V c main_v41) (((cfg1.win 2).blk t).view.emb j)
  refine (pay_apply _ _ _).trans ?_
  unfold biasRelu
  show FloatOps.maximumf (F := Ideal) (FloatOps.addf (F := Ideal) (aarr V c (((cfg1.win 0).blk t).view.emb ((win1 2).xinj (grid1.coords t) j)))
        (rarr V c (((cfg1.win 1).blk t).view.emb (ix2 (0 : Fin 1) (⟨(j 1).val, hj1⟩ : Fin 128))))) (FloatOps.ofBits (F := Ideal) .f32 0x00000000#32)
    = FloatOps.maximumf (F := Ideal) (FloatOps.addf (F := Ideal) (aarr V c (((cfg1.win 2).blk t).view.emb j))
        (rarr V c (rowcoord (((cfg1.win 2).blk t).view.emb j)))) (FloatOps.ofBits (F := Ideal) .f32 0x00000000#32)
  have h0 : ((cfg1.win 0).blk t).view.emb ((win1 2).xinj (grid1.coords t) j) = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) (⟨(j 1).val, hj1⟩ : Fin 128)) = rowcoord (((cfg1.win 2).blk t).view.emb j) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  rw [h0, h1]

/-- An index of the output array lies in point `t`'s block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v42).slice (win1_2.rect t)).set ↔ _
  rw [View.set_slice_whole, Rect.mem_set_unit]
  exact Iff.rfl

/-- Every entry of the output lies in some point's block: row `r` in block `r / 5000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 5000 < cfg1.N := by rw [show cfg1.N = 20 from N_1]; omega
  obtain ⟨-, -, -, -, e4, e5⟩ := idx_facts ⟨(i 0).val / 5000, hlt⟩
  have e4' : win1_2.index ⟨(i 0).val / 5000, hlt⟩ (0 : Fin 2) = (i 0).val / 5000 := e4
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4']; omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    rw [e5]; omega

/-- After the region the output array holds the biased, rectified array of the two arrays as the region found them. -/
theorem final (c : Dev nD) : (dat1 V c).arrAt 2 cfg1.N = biasRelu (V c main_v40) (V c main_v41) :=
  (dat1 V c).arrAt_eq_of_cover 2 _ (fun t _ => flushed_eq V c t) covered

end Cert.KernelIdeal.BiasRelu

end
-- ==== Proof.Dense2.lean ====
/-
  The second dense transform: what the second matrix-product kernel leaves in its output array.

  As in the first layer, with 128 columns in and 64 out: the kernel walks the 100000 rows of the hidden array in 20 blocks
  of 5000, multiplies each block by the whole 128×64 weight matrix into a zero accumulator, and writes the 5000×64 product
  to the same rows of the output. At the ideal values entry (r, h) of the output is Σ_k h(r, k)·w(k, h), whichever block r
  lies in; the 20 blocks cover every row.
-/
import proofs.«117052_j27685359190830_1_alg».proof.Proof.Gen.KernelIdeal.Frame
import proofs.«117052_j27685359190830_1_alg».proof.Proof.LibDenseLayer

set_option maxRecDepth 16384

noncomputable section

namespace Cert.KernelIdeal.Dense2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where entry `i` of the product reads the left operand at the contracted coordinate `k`: row `i 0`, column `k`. -/
abbrev lcoord (i : S100000x64.Idx) (k : Fin 128) : S100000x128.Idx := fun a => match a with
  | ⟨0, _⟩ => ⟨(i 0).val, (i 0).isLt⟩
  | ⟨1, _⟩ => ⟨k.val, k.isLt⟩
/-- Where it reads the right operand: row `k`, column `i 1`. -/
abbrev rcoord (i : S100000x64.Idx) (k : Fin 128) : S128x64.Idx := fun a => match a with
  | ⟨0, _⟩ => ⟨k.val, k.isLt⟩
  | ⟨1, _⟩ => ⟨(i 1).val, (i 1).isLt⟩

/-- The product of a 100000×128 matrix with a 128×64 matrix, entry by entry. -/
def prod (x : (⟨S100000x128, .f32⟩ : BufTy).Contents (Elt Ideal)) (w : (⟨S128x64, .f32⟩ : BufTy).Contents (Elt Ideal)) :
    (⟨S100000x64, .f32⟩ : BufTy).Contents (Elt Ideal) :=
  fun i => ∑ k : Fin 128, x (lcoord i k) * w (rcoord i k)

/-- The hidden array as the region finds it, at its literal type. -/
abbrev xarr (c : Dev nD) : (⟨S100000x128, .f32⟩ : BufTy).Contents (Elt Ideal) := V c main_v42
/-- The weight matrix as the region finds it, at its literal type. -/
abbrev warr (c : Dev nD) : (⟨S128x64, .f32⟩ : BufTy).Contents (Elt Ideal) := V c main_arg4

/-- One block's product read at an entry: the cast to the same shape and the change of format are the identity and the
    zero accumulator adds nothing. -/
theorem pay_apply (xb : Vec Ideal S5000x128 .f32) (wb : Vec Ideal S128x64 .f32) (y : S5000x64.Idx) :
    k2_pay1 xb wb y = ∑ l : Fin 128, xb (ix2 (⟨(y 0).val, (y 0).isLt⟩ : Fin 5000) l) * wb (ix2 l (⟨(y 1).val, (y 1).isLt⟩ : Fin 64)) := by
  obtain ⟨p, q, rfl⟩ : ∃ (p : Fin 5000) (q : Fin 64), y = ix2 p q := ⟨y 0, y 1, eq_ix2 y⟩
  unfold k2_pay1
  refine (DenseLayer.matmul_rows_apply dot_S5000x128_S128x64_S5000x64_1_0_0_1_n_n_wf none _ _ p q).trans ?_
  refine Finset.sum_congr rfl fun l _ => ?_
  show shapeCast S5000x128 xb shapeCasts_S5000x128_S5000x128 (ix2 p l) * wb (ix2 l q) = _
  rw [shapeCast_self]

/-- The printed index maps over the 20 points: the row block of the hidden array and of the output is the point's number;
    the weight matrix is one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the product of the two arrays as the region finds them. -/
theorem flushed_eq (c : Dev nD) (t : Fin cfg2.N) :
    (dat2 V c).flushed 2 t = ((cfg2.win 2).blk t).view.read (Elt Ideal) (prod (V c main_v42) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  funext j
  have hj0 : (j 0).val < 5000 := (j 0).isLt
  have hj1 : (j 1).val < 64 := (j 1).isLt
  show k2_pay1 (iblk2 V c 0 t) (iblk2 V c 1 t) ((win2 2).xinj (grid2.coords t) j)
    = prod (V c main_v42) (V c main_arg4) (((cfg2.win 2).blk t).view.emb j)
  refine (pay_apply _ _ _).trans ?_
  unfold prod
  refine Finset.sum_congr rfl fun l _ => ?_
  have hl : l.val < 128 := l.isLt
  show xarr V c (((cfg2.win 0).blk t).view.emb (ix2 (⟨(j 0).val, hj0⟩ : Fin 5000) l))
      * warr V c (((cfg2.win 1).blk t).view.emb (ix2 l (⟨(j 1).val, hj1⟩ : Fin 64)))
    = xarr V c (lcoord (((cfg2.win 2).blk t).view.emb j) l) * warr V c (rcoord (((cfg2.win 2).blk t).view.emb j) l)
  have h0 : ((cfg2.win 0).blk t).view.emb (ix2 (⟨(j 0).val, hj0⟩ : Fin 5000) l) = lcoord (((cfg2.win 2).blk t).view.emb j) l := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * l.val = l.val; omega
  have h1 : ((cfg2.win 1).blk t).view.emb (ix2 l (⟨(j 1).val, hj1⟩ : Fin 64)) = rcoord (((cfg2.win 2).blk t).view.emb j) l := by
    funext a; apply Fin.ext
    match a with
    | ⟨0, _⟩ => show win2_1.index t (0 : Fin 2) * 128 + 1 * l.val = l.val; omega
    | ⟨1, _⟩ => show win2_1.index t (1 : Fin 2) * 64 + 1 * (j 1).val = win2_2.index t (1 : Fin 2) * 64 + 1 * (j 1).val; omega
  rw [h0, h1]

/-- An index of the output array lies in point `t`'s block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v43).slice (win2_2.rect t)).set ↔ _
  rw [View.set_slice_whole, Rect.mem_set_unit]
  exact Iff.rfl

/-- Every entry of the output lies in some point's block: row `r` in block `r / 5000`. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hlt : (i 0).val / 5000 < cfg2.N := by rw [show cfg2.N = 20 from N_2]; omega
  obtain ⟨-, -, -, -, e4, e5⟩ := idx_facts ⟨(i 0).val / 5000, hlt⟩
  have e4' : win2_2.index ⟨(i 0).val / 5000, hlt⟩ (0 : Fin 2) = (i 0).val / 5000 := e4
  refine ⟨⟨(i 0).val / 5000, hlt⟩, flush2_2 _, ?_⟩
  rw [mem_blk]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [e4']; omega
  | ⟨1, _⟩ =>
    show win2_2.index ⟨(i 0).val / 5000, hlt⟩ (1 : Fin 2) * 64 ≤ (i 1).val ∧ (i 1).val < win2_2.index ⟨(i 0).val / 5000, hlt⟩ (1 : Fin 2) * 64 + 64
    rw [e5]; omega

/-- After the region the output array holds the product of the two arrays as the region found them. -/
theorem final (c : Dev nD) : (dat2 V c).arrAt 2 cfg2.N = prod (V c main_v42) (V c main_arg4) :=
  (dat2 V c).arrAt_eq_of_cover 2 _ (fun t _ => flushed_eq V c t) covered

end Cert.KernelIdeal.Dense2

end
-- ==== Proof.BiasOut.lean ====
/-
  The bias of the second layer: what the last kernel leaves in the program's result array.

  The kernel walks the 100000 rows of the aggregated array in 20 blocks of 5000. At block t it adds to each of the rows
  5000·t … 5000·t + 4999 the one bias row (broadcast down the rows), entry by entry, and writes the block to the same rows
  of the result. Entry (r, h) of the result is a(r, h) + b(0, h) whichever block r lies in: the blocks restrict ONE
  function of the two arrays, and the 20 blocks cover every row.
-/
import proofs.«117052_j27685359190830_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.BiasOut

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Where entry `i` reads the one-row bias: row 0, column `i 1`. -/
abbrev rowcoord (i : S100000x64.Idx) : S1x64.Idx := fun a => match a with
  | ⟨0, _⟩ => ⟨0, Nat.one_pos⟩
  | ⟨1, _⟩ => ⟨(i 1).val, (i 1).isLt⟩

/-- The bias row added to every row of `a`, entry by entry. -/
def biasAdd (a : FVec Ideal S100000x64 .f32) (row : FVec Ideal S1x64 .f32) :
    FVec Ideal S100000x64 .f32 :=
  fun i => FloatOps.addf (F := Ideal) (a i) (row (rowcoord i))

/-- The aggregated array as the region finds it, at its literal type. -/
abbrev aarr (c : Dev nD) : FVec Ideal S100000x64 .f32 := V c main_v56
/-- The bias row as the region finds it, at its literal type. -/
abbrev rarr (c : Dev nD) : FVec Ideal S1x64 .f32 := V c main_v57

/-- One block's result read at an entry. -/
theorem pay_apply (xb : FVec Ideal S5000x64 .f32) (rb : FVec Ideal S1x64 .f32) (y : S5000x64.Idx) :
    k3_pay1 (F := Ideal) xb rb y = FloatOps.addf (F := Ideal) (xb y) (rb (ix2 (0 : Fin 1) (⟨(y 1).val, (y 1).isLt⟩ : Fin 64))) := by
  obtain ⟨p, q, rfl⟩ : ∃ (p : Fin 5000) (q : Fin 64), y = ix2 p q := ⟨y 0, y 1, eq_ix2 y⟩
  unfold k3_pay1
  show FloatOps.addf (F := Ideal) (shapeCast S5000x64 xb _ (ix2 p q))
      (broadcastTo S5000x64 (shapeCast S1x64 rb _) _ (ix2 p q)) = _
  rw [shapeCast_self, shapeCast_self, broadcastTo_1b_ab_apply]

/-- The printed index maps over the 20 points. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the biased array. -/
theorem flushed_eq (c : Dev nD) (t : Fin cfg3.N) :
    (dat3 V c).flushed 2 t = ((cfg3.win 2).blk t).view.read (Elt Ideal) (biasAdd (V c main_v56) (V c main_v57)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e0, e1, e2, e3, e4, e5⟩ := idx_facts t
  funext j
  have hj0 : (j 0).val < 5000 := (j 0).isLt
  have hj1 : (j 1).val < 64 := (j 1).isLt
  show k3_pay1 (iblk3 V c 0 t) (iblk3 V c 1 t) ((win3 2).xinj (grid3.coords t) j)
    = biasAdd (V c main_v56) (V c main_v57) (((cfg3.win 2).blk t).view.emb j)
  refine (pay_apply _ _ _).trans ?_
  unfold biasAdd
  show FloatOps.addf (F := Ideal) (aarr V c (((cfg3.win 0).blk t).view.emb ((win3 2).xinj (grid3.coords t) j)))
        (rarr V c (((cfg3.win 1).blk t).view.emb (ix2 (0 : Fin 1) (⟨(j 1).val, hj1⟩ : Fin 64))))
    = FloatOps.addf (F := Ideal) (aarr V c (((cfg3.win 2).blk t).view.emb j)) (rarr V c (rowcoord (((cfg3.win 2).blk t).view.emb j)))
  have h0 : ((cfg3.win 0).blk t).view.emb ((win3 2).xinj (grid3.coords t) j) = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 (0 : Fin 1) (⟨(j 1).val, hj1⟩ : Fin 64)) = rowcoord (((cfg3.win 2).blk t).view.emb j) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [h0, h1]

/-- An index of the result array lies in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v58).slice (win3_2.rect t)).set ↔ _
  rw [View.set_slice_whole, Rect.mem_set_unit]
  exact Iff.rfl

/-- Every entry of the result lies in some point's block: row `r` in block `r / 5000`. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hlt : (i 0).val / 5000 < cfg3.N := by rw [show cfg3.N = 20 from N_3]; omega
  obtain ⟨-, -, -, -, e4, e5⟩ := idx_facts ⟨(i 0).val / 5000, hlt⟩
  have e4' : win3_2.index ⟨(i 0).val / 5000, hlt⟩ (0 : Fin 2) = (i 0).val / 5000 := e4
  refine ⟨⟨(i 0).val / 5000, hlt⟩, flush3_2 _, ?_⟩
  rw [mem_blk]
  intro a
  match a with
  | ⟨0, _⟩ =>
    show win3_2.index ⟨(i 0).val / 5000, hlt⟩ (0 : Fin 2) * 5000 ≤ (i 0).val ∧ (i 0).val < win3_2.index ⟨(i 0).val / 5000, hlt⟩ (0 : Fin 2) * 5000 + 5000
    rw [e4']; omega
  | ⟨1, _⟩ =>
    show win3_2.index ⟨(i 0).val / 5000, hlt⟩ (1 : Fin 2) * 64 ≤ (i 1).val ∧ (i 1).val < win3_2.index ⟨(i 0).val / 5000, hlt⟩ (1 : Fin 2) * 64 + 64
    rw [e5]; omega

/-- After the region the result array holds the biased array of the two arrays as the region found them. -/
theorem final (c : Dev nD) : (dat3 V c).arrAt 2 cfg3.N = biasAdd (V c main_v56) (V c main_v57) :=
  (dat3 V c).arrAt_eq_of_cover 2 _ (fun t _ => flushed_eq V c t) covered

end Cert.KernelIdeal.BiasOut

end
-- ==== Proof.Boundary.lean ====
/-
  The program's memory, boundary by boundary, at the buffers its result depends on.

  The program is seven segments: a stretch of host operations, the first product kernel, a second stretch, the bias and
  rectifier kernel, the second product kernel, a third stretch, and the last bias kernel. The buffer contents at each of
  the eight boundaries are a fold from the launch memory. Here that fold is read at the handful of buffers the result
  depends on. The sources, targets and weights of the edges are computed once, in the first stretch, from the edge list,
  and are read again by the second and third stretches: no region and no later stretch writes them, so they are carried
  forward unchanged, as are the bias vectors and the second weight matrix. Each region's output array is, by that region's
  value lemma, one function of its input arrays as the region finds them. Composing these, the result buffer at the last
  boundary is one function `out` of the six arguments: per layer a product, the aggregation over the edges, and the bias
  (with the rectifier after the first).
-/
import proofs.«117052_j27685359190830_1_alg».proof.Proof.Gen.KernelIdeal.Frame
import proofs.«117052_j27685359190830_1_alg».proof.Proof.Stretches
import proofs.«117052_j27685359190830_1_alg».proof.Proof.Dense1
import proofs.«117052_j27685359190830_1_alg».proof.Proof.BiasRelu
import proofs.«117052_j27685359190830_1_alg».proof.Proof.Dense2
import proofs.«117052_j27685359190830_1_alg».proof.Proof.BiasOut

set_option maxRecDepth 16384

noncomputable section

namespace Cert.KernelIdeal.Boundary

open Cert.KernelIdeal Cert.KernelIdeal.Gen Cert.KernelIdeal.Stretch
open Idealize.ShloMosaic Idealize.ShloMosaic.TcCoe Idealize.SL.Sem

/-- The program's result as one function of its six arguments: x, the edge list, and each layer's weights and bias. -/
def out (x : (⟨S100000x256, .f32⟩ : BufTy).Contents (Elt Ideal)) (e : (⟨S2x800000, .i32⟩ : BufTy).Contents (Elt Ideal))
    (w1 : (⟨S256x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) :
    (⟨S100000x64, .f32⟩ : BufTy).Contents (Elt Ideal) :=
  BiasOut.biasAdd
    (agg64 (Dense2.prod (BiasRelu.biasRelu (agg128 (Dense1.prod x w1) (srcOf e) (dstOf e) (normOf (srcOf e) (dstOf e)))
        (shapeCast S1x128 b1 shapeCasts_S128_S1x128)) w2) (srcOf e) (dstOf e) (normOf (srcOf e) (dstOf e)))
    (shapeCast S1x64 b2 shapeCasts_S64_S1x64)

variable (m : (ℓ : Loc nD τ sig) → Buf (Elt Ideal) ℓ) (ρ : Dev nD → PrngReg) (c : Dev nD)

/-! ## The quantities carried through the run, as functions of the launch memory -/

/-- Argument `k` of the program on core `c`, as launched. -/
abbrev arg0 := m ((c : Thread nD τ).loc main_arg0)
abbrev arg1 := m ((c : Thread nD τ).loc main_arg1)
abbrev arg2 := m ((c : Thread nD τ).loc main_arg2)
abbrev arg3 := m ((c : Thread nD τ).loc main_arg3)
abbrev arg4 := m ((c : Thread nD τ).loc main_arg4)
abbrev arg5 := m ((c : Thread nD τ).loc main_arg5)
/-- The edges' sources, targets and weights. -/
abbrev src := srcOf (arg1 m c)
abbrev dst := dstOf (arg1 m c)
abbrev norm := normOf (src m c) (dst m c)
/-- The first layer: the product, its aggregation over the edges, the bias row, and the biased, rectified hidden array. -/
abbrev hw1 := Dense1.prod (arg0 m c) (arg2 m c)
abbrev agg1 := agg128 (hw1 m c) (src m c) (dst m c) (norm m c)
abbrev row1 := shapeCast S1x128 (arg3 m c) shapeCasts_S128_S1x128
abbrev hid := BiasRelu.biasRelu (agg1 m c) (row1 m c)
/-- The second layer: the product, its aggregation over the edges, and the bias row. -/
abbrev hw2 := Dense2.prod (hid m c) (arg4 m c)
abbrev agg2 := agg64 (hw2 m c) (src m c) (dst m c) (norm m c)
abbrev row2 := shapeCast S1x64 (arg5 m c) shapeCasts_S64_S1x64

/-! ## After the first stretch -/

theorem W1_arg0 : W1 m ρ c (Proc.devRef .tc main_arg0) = arg0 m c := first_keeps_arg0 (W0 m ρ c)
theorem W1_arg2 : W1 m ρ c (Proc.devRef .tc main_arg2) = arg2 m c := first_keeps_arg2 (W0 m ρ c)
theorem W1_arg3 : W1 m ρ c (Proc.devRef .tc main_arg3) = arg3 m c := first_keeps_arg3 (W0 m ρ c)
theorem W1_arg4 : W1 m ρ c (Proc.devRef .tc main_arg4) = arg4 m c := first_keeps_arg4 (W0 m ρ c)
theorem W1_arg5 : W1 m ρ c (Proc.devRef .tc main_arg5) = arg5 m c := first_keeps_arg5 (W0 m ρ c)
theorem W1_src : W1 m ρ c (Proc.devRef .tc main_v3) = src m c := first_src (W0 m ρ c)
theorem W1_dst : W1 m ρ c (Proc.devRef .tc main_v6) = dst m c := first_dst (W0 m ρ c)
theorem W1_norm : W1 m ρ c (Proc.devRef .tc main_v26) = norm m c := first_norm (W0 m ρ c)

/-! ## After the first product kernel -/

theorem W2_hw : W2 m ρ c (Proc.devRef .tc main_v27) = hw1 m c :=
  (W2_arr m ρ c 2).trans ((Dense1.final (V1 m ρ) c).trans (congrArg₂ Dense1.prod (W1_arg0 m ρ c) (W1_arg2 m ρ c)))
theorem W2_src : W2 m ρ c (Proc.devRef .tc main_v3) = src m c := (W2_of_ne m ρ c main_v3 (by decide)).trans (W1_src m ρ c)
theorem W2_dst : W2 m ρ c (Proc.devRef .tc main_v6) = dst m c := (W2_of_ne m ρ c main_v6 (by decide)).trans (W1_dst m ρ c)
theorem W2_norm : W2 m ρ c (Proc.devRef .tc main_v26) = norm m c := (W2_of_ne m ρ c main_v26 (by decide)).trans (W1_norm m ρ c)
theorem W2_arg3 : W2 m ρ c (Proc.devRef .tc main_arg3) = arg3 m c := (W2_of_ne m ρ c main_arg3 (by decide)).trans (W1_arg3 m ρ c)
theorem W2_arg4 : W2 m ρ c (Proc.devRef .tc main_arg4) = arg4 m c := (W2_of_ne m ρ c main_arg4 (by decide)).trans (W1_arg4 m ρ c)
theorem W2_arg5 : W2 m ρ c (Proc.devRef .tc main_arg5) = arg5 m c := (W2_of_ne m ρ c main_arg5 (by decide)).trans (W1_arg5 m ρ c)

/-! ## After the second stretch -/

theorem W3_agg : W3 m ρ c (Proc.devRef .tc main_v40) = agg1 m c :=
  (second_agg (W2 m ρ c)).trans (by rw [W2_hw m ρ c, W2_src m ρ c, W2_dst m ρ c, W2_norm m ρ c])
theorem W3_row : W3 m ρ c (Proc.devRef .tc main_v41) = row1 m c :=
  (second_row (W2 m ρ c)).trans (by rw [W2_arg3 m ρ c])
theorem W3_src : W3 m ρ c (Proc.devRef .tc main_v3) = src m c := (second_keeps_v3 (W2 m ρ c)).trans (W2_src m ρ c)
theorem W3_dst : W3 m ρ c (Proc.devRef .tc main_v6) = dst m c := (second_keeps_v6 (W2 m ρ c)).trans (W2_dst m ρ c)
theorem W3_norm : W3 m ρ c (Proc.devRef .tc main_v26) = norm m c := (second_keeps_v26 (W2 m ρ c)).trans (W2_norm m ρ c)
theorem W3_arg4 : W3 m ρ c (Proc.devRef .tc main_arg4) = arg4 m c := (second_keeps_arg4 (W2 m ρ c)).trans (W2_arg4 m ρ c)
theorem W3_arg5 : W3 m ρ c (Proc.devRef .tc main_arg5) = arg5 m c := (second_keeps_arg5 (W2 m ρ c)).trans (W2_arg5 m ρ c)

/-! ## After the bias and rectifier kernel -/

theorem W4_hid : W4 m ρ c (Proc.devRef .tc main_v42) = hid m c :=
  (W4_arr m ρ c 2).trans ((BiasRelu.final (V3 m ρ) c).trans (congrArg₂ BiasRelu.biasRelu (W3_agg m ρ c) (W3_row m ρ c)))
theorem W4_src : W4 m ρ c (Proc.devRef .tc main_v3) = src m c := (W4_of_ne m ρ c main_v3 (by decide)).trans (W3_src m ρ c)
theorem W4_dst : W4 m ρ c (Proc.devRef .tc main_v6) = dst m c := (W4_of_ne m ρ c main_v6 (by decide)).trans (W3_dst m ρ c)
theorem W4_norm : W4 m ρ c (Proc.devRef .tc main_v26) = norm m c := (W4_of_ne m ρ c main_v26 (by decide)).trans (W3_norm m ρ c)
theorem W4_arg4 : W4 m ρ c (Proc.devRef .tc main_arg4) = arg4 m c := (W4_of_ne m ρ c main_arg4 (by decide)).trans (W3_arg4 m ρ c)
theorem W4_arg5 : W4 m ρ c (Proc.devRef .tc main_arg5) = arg5 m c := (W4_of_ne m ρ c main_arg5 (by decide)).trans (W3_arg5 m ρ c)

/-! ## After the second product kernel -/

theorem W5_hw : W5 m ρ c (Proc.devRef .tc main_v43) = hw2 m c :=
  (W5_arr m ρ c 2).trans ((Dense2.final (V4 m ρ) c).trans (congrArg₂ Dense2.prod (W4_hid m ρ c) (W4_arg4 m ρ c)))
theorem W5_src : W5 m ρ c (Proc.devRef .tc main_v3) = src m c := (W5_of_ne m ρ c main_v3 (by decide)).trans (W4_src m ρ c)
theorem W5_dst : W5 m ρ c (Proc.devRef .tc main_v6) = dst m c := (W5_of_ne m ρ c main_v6 (by decide)).trans (W4_dst m ρ c)
theorem W5_norm : W5 m ρ c (Proc.devRef .tc main_v26) = norm m c := (W5_of_ne m ρ c main_v26 (by decide)).trans (W4_norm m ρ c)
theorem W5_arg5 : W5 m ρ c (Proc.devRef .tc main_arg5) = arg5 m c := (W5_of_ne m ρ c main_arg5 (by decide)).trans (W4_arg5 m ρ c)

/-! ## After the third stretch -/

theorem W6_agg : W6 m ρ c (Proc.devRef .tc main_v56) = agg2 m c :=
  (third_agg (W5 m ρ c)).trans (by rw [W5_hw m ρ c, W5_src m ρ c, W5_dst m ρ c, W5_norm m ρ c])
theorem W6_row : W6 m ρ c (Proc.devRef .tc main_v57) = row2 m c :=
  (third_row (W5 m ρ c)).trans (by rw [W5_arg5 m ρ c])

/-! ## After the last bias kernel: the result -/

/-- At the last boundary the result buffer holds `out` of the six arguments as launched. -/
theorem W7_out : W7 m ρ c (Proc.devRef .tc main_v58)
    = out (arg0 m c) (arg1 m c) (arg2 m c) (arg3 m c) (arg4 m c) (arg5 m c) :=
  (W7_arr m ρ c 2).trans ((BiasOut.final (V6 m ρ) c).trans (congrArg₂ BiasOut.biasAdd (W6_agg m ρ c) (W6_row m ρ c)))

end Cert.KernelIdeal.Boundary

end
-- ==== Proof.Bridge.lean ====
/-
  The reference's result is the kernel program's result, as functions of the six arguments.

  Both programs build the sources, targets and weights of the edges by the same host operations, and aggregate over the
  edges by the same gather, scaling and scatter-add: those parts are the same terms, carried here as named functions and
  never opened. They differ in the two dense transforms and in the two bias additions. The reference multiplies whole
  matrices on the host; at the ideal values that product has, at (r, h), the entry Σ_k a(r, k)·w(k, h): the function the
  product kernels leave. The reference lays the bias vector along a row and repeats the row down the array by two
  broadcasts; the kernels are handed the vector cast to one row and read that row at every row of the block. Either way
  entry (r, h) gets the bias vector's entry h, and the rectifier is the maximum with zero on both sides.
-/
import proofs.«117052_j27685359190830_1_alg».proof.Proof.Gen.ReferenceIdeal.Read
import proofs.«117052_j27685359190830_1_alg».proof.Proof.Boundary

noncomputable section

namespace Cert.Bridge

open Idealize.ShloMosaic Idealize.ShloMosaic.ValueIdx
open Cert.ReferenceIdeal.Read
open Cert.KernelIdeal.Stretch Cert.KernelIdeal.Boundary

variable (x0 : (⟨Cert.ReferenceIdeal.S100000x256, .f32⟩ : BufTy).Contents (Elt Ideal))
  (x1 : (⟨Cert.ReferenceIdeal.S2x800000, .i32⟩ : BufTy).Contents (Elt Ideal))
  (x2 : (⟨Cert.ReferenceIdeal.S256x128, .f32⟩ : BufTy).Contents (Elt Ideal))
  (x3 : (⟨Cert.ReferenceIdeal.S128, .f32⟩ : BufTy).Contents (Elt Ideal))
  (x4 : (⟨Cert.ReferenceIdeal.S128x64, .f32⟩ : BufTy).Contents (Elt Ideal))
  (x5 : (⟨Cert.ReferenceIdeal.S64, .f32⟩ : BufTy).Contents (Elt Ideal))

/-! ## The shared host operations: the same terms -/

theorem src_eq : val_main_v3 (F := Ideal) x1 = srcOf x1 := rfl
theorem dst_eq : val_main_v6 (F := Ideal) x1 = dstOf x1 := rfl
theorem norm_eq : val_main_v26 (F := Ideal) x1 = normOf (val_main_v3 (F := Ideal) x1) (val_main_v6 (F := Ideal) x1) := rfl
theorem agg1_eq : val_main_v40 (F := Ideal) x0 x1 x2
    = agg128 (val_main_v27 (F := Ideal) x0 x2) (val_main_v3 (F := Ideal) x1) (val_main_v6 (F := Ideal) x1) (val_main_v26 (F := Ideal) x1) := rfl
theorem agg2_eq : val_main_v58 (F := Ideal) x0 x1 x2 x3 x4
    = agg64 (val_main_v45 (F := Ideal) x0 x1 x2 x3 x4) (val_main_v3 (F := Ideal) x1) (val_main_v6 (F := Ideal) x1) (val_main_v26 (F := Ideal) x1) := rfl

/-! ## The dense transforms: the host's product is the sum the kernels leave -/

theorem prod1_eq : val_main_v27 (F := Ideal) x0 x2 = Cert.KernelIdeal.Dense1.prod x0 x2 := by
  funext i
  rw [val_main_v27_apply]
  rfl

theorem prod2_eq : val_main_v45 (F := Ideal) x0 x1 x2 x3 x4 = Cert.KernelIdeal.Dense2.prod (val_main_v44 (F := Ideal) x0 x1 x2 x3) x4 := by
  funext i
  rw [val_main_v45_apply]
  rfl

/-! ## The bias additions: two broadcasts of the vector against one row cast from it -/

theorem relu_eq : val_main_v44 (F := Ideal) x0 x1 x2 x3
    = Cert.KernelIdeal.BiasRelu.biasRelu (val_main_v40 (F := Ideal) x0 x1 x2)
        (shapeCast Cert.KernelIdeal.S1x128 x3 Cert.KernelIdeal.Gen.shapeCasts_S128_S1x128) := by
  funext i
  rw [val_main_v44_apply, val_main_v43_apply, val_main_v42_apply, val_main_v41_apply, val_main_call0_v0_apply, val_main_call0_cst_apply]
  unfold Cert.KernelIdeal.BiasRelu.biasRelu
  have hrow : shapeCast Cert.KernelIdeal.S1x128 x3 Cert.KernelIdeal.Gen.shapeCasts_S128_S1x128 (Cert.KernelIdeal.BiasRelu.rowcoord i)
      = x3 (idx_main_v41 (idx_main_v42 i)) := by
    have e1 : Cert.KernelIdeal.BiasRelu.rowcoord i = ix2 (0 : Fin 1) (⟨(i 1).val, (i 1).isLt⟩ : Fin 128) := by
      funext a; match a with | ⟨0, _⟩ => rfl | ⟨1, _⟩ => rfl
    have e2 : idx_main_v41 (idx_main_v42 i) = ix1 (⟨(i 1).val, (i 1).isLt⟩ : Fin 128) := by
      funext a; match a with | ⟨0, _⟩ => rfl
    rw [e1, e2]
    exact shapeCast_a_1a_apply x3 _ _ _
  rw [hrow]

theorem out_eq : val_main_v61 (F := Ideal) x0 x1 x2 x3 x4 x5
    = Cert.KernelIdeal.BiasOut.biasAdd (val_main_v58 (F := Ideal) x0 x1 x2 x3 x4)
        (shapeCast Cert.KernelIdeal.S1x64 x5 Cert.KernelIdeal.Gen.shapeCasts_S64_S1x64) := by
  funext i
  rw [val_main_v61_apply, val_main_v60_apply, val_main_v59_apply]
  unfold Cert.KernelIdeal.BiasOut.biasAdd
  have hrow : shapeCast Cert.KernelIdeal.S1x64 x5 Cert.KernelIdeal.Gen.shapeCasts_S64_S1x64 (Cert.KernelIdeal.BiasOut.rowcoord i)
      = x5 (idx_main_v59 (idx_main_v60 i)) := by
    have e1 : Cert.KernelIdeal.BiasOut.rowcoord i = ix2 (0 : Fin 1) (⟨(i 1).val, (i 1).isLt⟩ : Fin 64) := by
      funext a; match a with | ⟨0, _⟩ => rfl | ⟨1, _⟩ => rfl
    have e2 : idx_main_v59 (idx_main_v60 i) = ix1 (⟨(i 1).val, (i 1).isLt⟩ : Fin 64) := by
      funext a; match a with | ⟨0, _⟩ => rfl
    rw [e1, e2]
    exact shapeCast_a_1a_apply x5 _ _ _
  rw [hrow]

/-! ## The whole -/

/-- The reference's result, as a function of the six arguments, is the kernel program's. -/
theorem result_eq : val_main_v61 (F := Ideal) x0 x1 x2 x3 x4 x5 = out x0 x1 x2 x3 x4 x5 := by
  unfold out
  rw [out_eq, agg2_eq, prod2_eq, relu_eq, agg1_eq, prod1_eq, norm_eq, src_eq, dst_eq]

end Cert.Bridge

end
-- ==== Proof.lean ====
/-
  A two-layer graph convolution, its kernel program against its reference, over the extended reals.

  Both programs take node features x (100000 × 256), an edge list (2 × 800000 node numbers), and two layers' weights and
  biases. Both add a loop at every node, weigh each edge by the inverse square roots of the numbers of edges into its two
  ends, and compute per layer: a dense transform h·W, the aggregation over the edges (gather the rows of h·W at the edges'
  sources, scale by the edge weights, add into the rows of the edges' targets), and the bias; the first layer ends with the
  maximum with zero. The host operations that build the edges and aggregate over them are the same in the two programs.

  The kernel program runs the two dense transforms and the two bias additions as kernels over 20 blocks of 5000 rows; the
  reference runs them as whole-array host operations. At the ideal values a change of float format is the identity and a
  product into a zero accumulator is the plain sum, so each product kernel leaves in its output, at (r, h), the sum
  Σ_k a(r, k)·w(k, h), which is what the host's product is there; each bias kernel leaves a(r, h) + b(h) (the first one
  the maximum of that with zero), which is what the host's two broadcasts and addition give. No law beyond these readings
  is used: nothing needs the inputs finite.

  The three frames are the generated ones (the reference's is its generated run with the result dropped); the idealization
  rewrote no operation, so there is nothing to preserve. For the equivalence, the kernel program's run is read with its
  result buffer kept (Proof/KernelRun.lean), the memory is followed boundary by boundary to one function of the six
  arguments (Proof/Boundary.lean over the four regions' value lemmas and the host stretches), and the reference's generated
  run is read stage by stage to the same function (Proof/Bridge.lean).
-/
import proofs.«117052_j27685359190830_1_alg».proof.Defs
import proofs.«117052_j27685359190830_1_alg».proof.Proof.Gen.Kernel
import proofs.«117052_j27685359190830_1_alg».proof.Proof.Gen.Kernel.Skeleton
import proofs.«117052_j27685359190830_1_alg».proof.Proof.Gen.Kernel.Launch
import proofs.«117052_j27685359190830_1_alg».proof.Proof.Gen.Kernel.Points
import proofs.«117052_j27685359190830_1_alg».proof.Proof.Gen.Kernel.Frame
import proofs.«117052_j27685359190830_1_alg».proof.Proof.Gen.KernelIdeal
import proofs.«117052_j27685359190830_1_alg».proof.Proof.Gen.KernelIdeal.Skeleton
import proofs.«117052_j27685359190830_1_alg».proof.Proof.Gen.KernelIdeal.Launch
import proofs.«117052_j27685359190830_1_alg».proof.Proof.Gen.KernelIdeal.Points
import proofs.«117052_j27685359190830_1_alg».proof.Proof.Gen.KernelIdeal.Frame
import proofs.«117052_j27685359190830_1_alg».proof.Proof.Gen.ReferenceIdeal
import proofs.«117052_j27685359190830_1_alg».proof.Proof.Gen.ReferenceIdeal.Run
import proofs.«117052_j27685359190830_1_alg».proof.Proof.Gen.ReferenceIdeal.Read
import proofs.«117052_j27685359190830_1_alg».proof.Proof.Gen.Pre_finite_inputs
import proofs.«117052_j27685359190830_1_alg».proof.Proof.KernelRun
import proofs.«117052_j27685359190830_1_alg».proof.Proof.Boundary
import proofs.«117052_j27685359190830_1_alg».proof.Proof.Bridge
import Idealize.ShloMosaic.Adequacy
import Idealize.ShloMosaic.Init

noncomputable section

namespace Cert.Proof

open Idealize.ShloMosaic Idealize.SL.Sem

/-- The kernel program as printed runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs too: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six arguments both programs end with the same result: the one function
    `Boundary.out` of the arguments. -/
theorem algebraic : Cert.algebraic_KernelIdeal_ReferenceIdeal := by
  intro m ρ m' ρ' _ hagree
  refine ⟨fun c => Cert.KernelIdeal.Boundary.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundary.W7_out m ρ c), (h c).2⟩)
      (Cert.KernelIdeal.RunValue.run_last m ρ)
  · refine (θ_run Cert.ReferenceIdeal.defs _ _).mono (fun _ h c => ⟨(h c).1.trans ?_, (h c).2⟩)
      (Cert.ReferenceIdeal.Value.run (F := Ideal) m' ρ')
    refine (Cert.ReferenceIdeal.Read.val_main_v61_eq m' c).trans ?_
    rw [(hagree c).1, (hagree c).2.1, (hagree c).2.2.1, (hagree c).2.2.2.1, (hagree c).2.2.2.2.1, (hagree c).2.2.2.2.2]
    exact Cert.Bridge.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
